-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S1x128 : Shape := ⟨2, ![1, 128]⟩
abbrev S128x1024 : Shape := ⟨2, ![128, 1024]⟩
abbrev S1024 : Shape := ⟨1, ![1024]⟩
abbrev S1024x4096 : Shape := ⟨2, ![1024, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  main_v53

def fn_part2 {F : FTy → Type} [FloatOps F] (main_arg7 : FVec F S128x1024 .f32) (main_arg8 : FVec F S1024 .f32) (main_arg9 : FVec F S1024x4096 .f32) (main_arg10 : FVec F S4096 .f32) (main_v33 : IVec S_ 1) : IVec S_ 1 :=
  let main_v34 : FVec F S128x1024 .f32 := Host.absf main_arg7
  let main_cst_12 : FVec F S_ .f32 := constant S_ .f32 0x7F800000#32
  let main_v35 : FVec F S128x1024 .f32 := broadcastInDim S128x1024 ![] bcast_S_S128x1024 main_cst_12
  let main_v36 : IVec S128x1024 1 := cmpf .olt main_v34 main_v35
  let main_c_13 : IVec S_ 1 := constantI S_ 1 1#1
  let main_v37 : IVec S_ 1 := (fun x v => Host.reduce IntOp.andi x v reducesTo_S128x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_v48 main_v49 main_v50

def fn_part1 {F : FTy → Type} [FloatOps F] (main_arg4 : FVec F S1024 .f32) (main_arg5 : FVec F S1024x4096 .f32) (main_arg6 : FVec F S4096 .f32) (main_arg7 : FVec F S128x1024 .f32) (main_arg8 : FVec F S1024 .f32) (main_arg9 : FVec F S1024x4096 .f32) (main_arg10 : FVec F S4096 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x4096 .f32) (main_arg1 : FVec F S1x128 .f32) (main_arg2 : FVec F S1x128 .f32) (main_arg3 : FVec F S128x1024 .f32) (main_arg4 : FVec F S1024 .f32) (main_arg5 : FVec F S1024x4096 .f32) (main_arg6 : FVec F S4096 .f32) (main_arg7 : FVec F S128x1024 .f32) (main_arg8 : FVec F S1024 .f32) (main_arg9 : FVec F S1024x4096 .f32) (main_arg10 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_arg9 main_arg10 main_v13 main_v16
-- ==== Kernel.lean ====
abbrev S16384x4096 : Shape := ⟨2, ![16384, 4096]⟩
abbrev S1x128 : Shape := ⟨2, ![1, 128]⟩
abbrev S128x1024 : Shape := ⟨2, ![128, 1024]⟩
abbrev S1024 : Shape := ⟨1, ![1024]⟩
abbrev S1024x4096 : Shape := ⟨2, ![1024, 4096]⟩
abbrev S4096 : Shape := ⟨1, ![4096]⟩
abbrev S1x1024 : Shape := ⟨2, ![1, 1024]⟩
abbrev S_ : Shape := ⟨0, ![]⟩
abbrev S1x4096 : Shape := ⟨2, ![1, 4096]⟩
abbrev S256x4096 : Shape := ⟨2, ![256, 4096]⟩

abbrev nBuf : Space → Nat
  | .hbm => 53
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S1x128, .f32⟩
  | .hbm, ⟨2, _⟩ => ⟨S1x128, .f32⟩
  | .hbm, ⟨3, _⟩ => ⟨S128x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S128x1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S_, .f32⟩
  | .hbm, ⟨46, _⟩ => ⟨S1x4096, .f32⟩
  | .hbm, ⟨47, _⟩ => ⟨S1x4096, .f32⟩
  | .hbm, ⟨48, _⟩ => ⟨S_, .f32⟩
  | .hbm, ⟨49, _⟩ => ⟨S1x4096, .f32⟩
  | .hbm, ⟨50, _⟩ => ⟨S1x4096, .f32⟩
  | .hbm, ⟨51, _⟩ => ⟨S16384x4096, .f32⟩
  | .hbm, ⟨52, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_cst : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30_0 : Ref sig .tc := ⟨.hbm, 51, rfl⟩
abbrev main_v30_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S4096_S1x4096_1 : S4096.BroadcastsInDim S1x4096 (![1] : Fin 1 → Fin S1x4096.rank)
  bcast_S_S1x4096 : S_.BroadcastsInDim S1x4096 (![] : Fin 0 → Fin S1x4096.rank)
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S1x128_S128x1024_S1x1024_1_0_0_1_n_n_wf : DotDims.WF S1x128 S128x1024 S1x1024 [1] [0] [0] [1] [] []
  dot_S1x1024_S1024x4096_S1x4096_1_0_0_1_n_n_wf : DotDims.WF S1x1024 S1024x4096 S1x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S1x128 : Shape := ⟨2, ![1, 128]⟩
abbrev S128x1024 : Shape := ⟨2, ![128, 1024]⟩
abbrev S1024 : Shape := ⟨1, ![1024]⟩
abbrev S1024x4096 : Shape := ⟨2, ![1024, 4096]⟩
abbrev S4096 : Shape := ⟨1, ![4096]⟩
abbrev S1x1024 : Shape := ⟨2, ![1, 1024]⟩
abbrev S_ : Shape := ⟨0, ![]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x128, .f32⟩
  | .hbm, ⟨2, _⟩ => ⟨S1x128, .f32⟩
  | .hbm, ⟨3, _⟩ => ⟨S128x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S128x1024, .f32⟩
  | .hbm, ⟨8, _⟩ => ⟨S1024, .f32⟩
  | .hbm, ⟨9, _⟩ => ⟨S1024x4096, .f32⟩
  | .hbm, ⟨10, _⟩ => ⟨S4096, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S_, .f32⟩
  | .hbm, ⟨29, _⟩ => ⟨S1x4096, .f32⟩
  | .hbm, ⟨30, _⟩ => ⟨S1x4096, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S1x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S_, .f32⟩
  | .hbm, ⟨46, _⟩ => ⟨S1x4096, .f32⟩
  | .hbm, ⟨47, _⟩ => ⟨S1x4096, .f32⟩
  | .hbm, ⟨48, _⟩ => ⟨S_, .f32⟩
  | .hbm, ⟨49, _⟩ => ⟨S1x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_cst : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S16384x4096_0_1 : S1x4096.BroadcastsInDim S16384x4096 (![0, 1] : Fin 2 → Fin S16384x4096.rank)
  dot_S1x128_S128x1024_S1x1024_1_0_0_1_n_n_wf : DotDims.WF S1x128 S128x1024 S1x1024 [1] [0] [0] [1] [] []
  dot_S1x1024_S1024x4096_S1x4096_1_0_0_1_n_n_wf : DotDims.WF S1x1024 S1024x4096 S1x4096 [1] [0] [0] [1] [] []

variable [Facts₀]

def dot_S1x128_S128x1024_S1x1024_1_0_0_1_n_n : DotDims S1x128 S128x1024 S1x1024 where
  lhsContracting := [1]
  rhsContracting := [0]
  lhsNonContracting := [0]
  rhsNonContracting := [1]
  lhsBatch := []
  rhsBatch := []
  wf := dot_S1x128_S128x1024_S1x1024_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf

class Facts : Prop extends Facts₀ where

variable [Facts]
-- ==== Proof.Gate.lean ====
/-
  The mathematics both programs share.

  Each feature set has a GATE: the one context row `x` (1 × 128) goes through a two-layer perceptron,
  `z = relu(x · W1 + b1) · W2 + b2` (1 × 4096), and the gate is `2 · (1 / (1 + exp (−z)))`, twice the logistic
  function of `z`. Both programs compute the two gates by the same host operations, in the same order, on the same
  arguments, so the gate is carried here as ONE function `gate` of its five arguments and is never opened: nothing
  about matrix products, exponentials or quotients of extended reals is needed.

  The result is the embedding matrix `a` (16384 × 4096) with every row multiplied, column by column, by the gate's
  one row: entry `(r, q)` is `a (r, q) · g (0, q)` (`scaleRows`). The reference spells it as the product of `a`
  with the gate broadcast down the 16384 rows (`mulf_broadcast_rows`).
-/
import proofs.«403056_j34230889349593_3_alg».proof.Proof.Gen.KernelIdeal
import Idealize.ShloMosaic.Lib.ValueIdx
import Idealize.ShloMosaic.Lib.KernelVsHost

noncomputable section

namespace Cert.KernelIdeal.Gating

open Cert.KernelIdeal Cert.KernelIdeal.Facts₀ Idealize.ShloMosaic Idealize.ShloMosaic.ValueIdx

variable {F : FTy → Type} [FloatOps F]

/-- The gate of one feature set, a row of 4096 multipliers: `2 · (1 / (1 + exp (−(relu (x · W1 + b1) · W2 + b2))))`,
    every operation the host's, the biases broadcast along the one row, `relu` the maximum with a zero row. -/
def gate (x : FVec F S1x128 .f32) (W1 : FVec F S128x1024 .f32) (b1 : FVec F S1024 .f32) (W2 : FVec F S1024x4096 .f32)
    (b2 : FVec F S4096 .f32) : FVec F S1x4096 .f32 :=
  mulf (Host.divf (broadcastInDim S1x4096 ![] bcast_S_S1x4096 (constant S_ .f32 0x3F800000#32)) (addf (broadcastInDim S1x4096 ![] bcast_S_S1x4096 (constant S_ .f32 0x3F800000#32)) (Host.exp (Host.negf (addf (Host.dotGeneral dot_S1x1024_S1024x4096_S1x4096_1_0_0_1_n_n none (maximumf (addf (Host.dotGeneral dot_S1x128_S128x1024_S1x1024_1_0_0_1_n_n none x W1) (broadcastInDim S1x1024 ![1] bcast_S1024_S1x1024_1 b1)) (broadcastInDim S1x1024 ![] bcast_S_S1x1024 (constant S_ .f32 0x00000000#32))) W2) (broadcastInDim S1x4096 ![1] bcast_S4096_S1x4096_1 b2)))))) (broadcastInDim S1x4096 ![] bcast_S_S1x4096 (constant S_ .f32 0x40000000#32))

/-- The index `(0, q)` of a one-row matrix that lies under the index `(r, q)` of a 16384-row matrix. -/
abbrev rowUnder (i : S16384x4096.Idx) : S1x4096.Idx := ix2 (0 : Fin 1) (⟨(i 1).val, idx2_lt1 i⟩ : Fin 4096)

/-- Every row of `a` multiplied, column by column, by the one row `g`: entry `(r, q)` is `a (r, q) · g (0, q)`. -/
def scaleRows (a : FVec F S16384x4096 .f32) (g : FVec F S1x4096 .f32) : FVec F S16384x4096 .f32 :=
  fun i => FloatOps.mulf (a i) (g (rowUnder i))

/-- The product of `a` with the one row `g` broadcast down the 16384 rows is `scaleRows a g`: the broadcast read
    at `(r, q)` is `g (0, q)`. -/
theorem mulf_broadcast_rows (hbc : S1x4096.BroadcastsInDim S16384x4096 (![0, 1] : Fin 2 → Fin S16384x4096.rank))
    (a : FVec F S16384x4096 .f32) (g : FVec F S1x4096 .f32) :
    mulf a (broadcastInDim S16384x4096 ![0, 1] hbc g) = scaleRows a g := by
  funext i
  obtain ⟨r, q, rfl⟩ : ∃ (r : Fin 16384) (q : Fin 4096), i = ix2 r q := ⟨i 0, i 1, eq_ix2 i⟩
  show FloatOps.mulf (a (ix2 r q)) (broadcastInDim S16384x4096 ![0, 1] hbc g (ix2 r q))
    = FloatOps.mulf (a (ix2 r q)) (g (rowUnder (ix2 r q)))
  rw [broadcastInDim_oneRow_apply hbc g r q]

end Cert.KernelIdeal.Gating

end
-- ==== Proof.KernelBlocks.lean ====
/-
  From blocks to arrays, on the kernel's side.

  The grid has 64 points. Point `t` fetches rows `256 t … 256 t + 255` of the embedding matrix (all 4096 columns)
  and, once, the two gate rows (1 × 4096 each, block index `(0, 0)` at every point); the body multiplies the block's
  every row by a gate row and stores the product whole; the two output blocks go back to rows `256 t … 256 t + 255`
  of the two result arrays. The 64 blocks tile the 16384 rows, so each result array ends as the embedding matrix
  with every row scaled by its gate row (`scaleRows`), stated here over the arrays as the region finds them.
-/
import proofs.«403056_j34230889349593_3_alg».proof.Proof.Gen.KernelIdeal.Value
import proofs.«403056_j34230889349593_3_alg».proof.Proof.Gate

noncomputable section

namespace Cert.KernelIdeal.Blocks

open Cert.KernelIdeal Cert.KernelIdeal.Gen Cert.KernelIdeal.Value Cert.KernelIdeal.Gating
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

theorem zero_off : (![0, 0] : Fin 2 → Nat) = fun _ => 0 := funext fun a => by fin_cases a <;> rfl

/-- The printed index maps over the 64 grid points: the embedding window and both output windows are at block row
    `t`, block column 0; the two gate windows stay at block `(0, 0)`. -/
theorem idx_facts : ∀ t : Fin cfg0.N,
    win0_0.index t (0 : Fin 2) = win0_3.index t (0 : Fin 2) ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = win0_3.index t (0 : Fin 2) ∧ win0_4.index t (1 : Fin 2) = 0
    ∧ win0_3.index t (0 : Fin 2) = t.val :=
  (by decide +kernel : ∀ t : Fin grid0.N, _)

/-! ## The first output: the embedding rows scaled by the first gate -/

/-- What the body leaves in this output's buffer, entry by entry: the embedding block's entry times the gate row's
    entry of the same column (the body's one store covers the buffer; its payload is the block times the gate row
    broadcast down the 256 rows). -/
theorem out3_apply (x0 : Vec F S256x4096 .f32) (x1 x2 : Vec F S1x4096 .f32) (p : Fin 256) (q : Fin 4096) :
    out0_3 x0 x1 x2 (ix2 p q) = FloatOps.mulf (x0 (ix2 p q)) (x1 (ix2 (0 : Fin 1) q)) := by
  unfold out0_3
  rw [canon3_eq]
  show FloatOps.mulf (View.ld x0 r0_0 (ix3_0 (ix2 p q))) (View.ld x1 r0_1 (ix3_1 (ix2 p q))) = _
  rw [View.ld_unit_zero (S := S256x4096) zero_off, View.ld_unit_zero (S := S1x4096) zero_off]
  have e0 : ix3_0 (ix2 p q) = ix2 p q := funext fun a => by match a with | ⟨0, _⟩ => rfl | ⟨1, _⟩ => rfl
  have e1 : ix3_1 (ix2 p q) = ix2 (0 : Fin 1) q := funext fun a => by match a with | ⟨0, _⟩ => rfl | ⟨1, _⟩ => rfl
  rw [e0, e1]

/-- What grid point `t` writes back is block `t` of the scaled matrix: the embedding block sits at rows
    `256 t … 256 t + 255`, as the output block does, and the gate's one block is the whole gate row. -/
theorem flushed3_eq (c : Dev nD) (t : Fin cfg0.N) :
    (dats m 0 c).flushed 3 t = ((cfg0.win 3).blk t).view.read (Elt F) (scaleRows (V m c main_arg0) (V m c main_v14)) := by
  rw [flushed3]
  obtain ⟨e00, e01, e31, e10, e11, e20, e21, e40, e41, -⟩ := idx_facts t
  funext j
  obtain ⟨p, q, rfl⟩ : ∃ (p : Fin 256) (q : Fin 4096), j = ix2 p q := ⟨j 0, j 1, eq_ix2 j⟩
  show out0_3 (iblk m c 0 t) (iblk m c 1 t) (iblk m c 2 t) (ix2 p q)
    = scaleRows (V m c main_arg0) (V m c main_v14) (((cfg0.win 3).blk t).view.emb (ix2 p q))
  refine (out3_apply (F := F) (iblk m c 0 t) (iblk m c 1 t) (iblk m c 2 t) p q).trans ?_
  show FloatOps.mulf (V m c main_arg0 (((cfg0.win 0).blk t).view.emb (ix2 p q))) (V m c main_v14 (((cfg0.win 1).blk t).view.emb (ix2 (0 : Fin 1) q)))
    = FloatOps.mulf (V m c main_arg0 (((cfg0.win 3).blk t).view.emb (ix2 p q))) (V m c main_v14 (rowUnder (((cfg0.win 3).blk t).view.emb (ix2 p q))))
  have h0 : ((cfg0.win 0).blk t).view.emb (ix2 p q) = ((cfg0.win 3).blk t).view.emb (ix2 p q) := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 4096 + 1 * q.val = win0_3.index t (1 : Fin 2) * 4096 + 1 * q.val; omega
  have h1 : ((cfg0.win 1).blk t).view.emb (ix2 (0 : Fin 1) q) = rowUnder (((cfg0.win 3).blk t).view.emb (ix2 p q)) := by
    funext a; apply Fin.ext
    match a with
    | ⟨0, _⟩ => show win0_1.index t (0 : Fin 2) * 1 + 1 * 0 = 0; omega
    | ⟨1, _⟩ => show win0_1.index t (1 : Fin 2) * 4096 + 1 * q.val = win0_3.index t (1 : Fin 2) * 4096 + 1 * q.val; omega
  rw [h0, h1]

/-- An index of the array is in point `t`'s block iff each coordinate is in the block's range on its axis. -/
theorem mem_blk3 (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v30_0).slice (win0_3.rect t)).set ↔ _
  rw [View.set_slice_whole, Rect.mem_set_unit]
  exact Iff.rfl

/-- The 64 blocks of 256 rows tile the 16384 rows: row `r` is in the block of point `r / 256`. -/
theorem cover3 (i : S16384x4096.Idx) :
    ∃ t : Fin cfg0.N, (cfg0.win 3).flush t = true ∧ i ∈ ((cfg0.win 3).blk t).view.set := by
  have hi0 : (i 0).val < 16384 := idx2_lt0 i
  have hi1 : (i 1).val < 4096 := idx2_lt1 i
  obtain ⟨t, ht⟩ : ∃ t : Fin cfg0.N, t.val = (i 0).val / 256 :=
    ⟨⟨(i 0).val / 256, by show _ < grid0.N; rw [N_0]; omega⟩, rfl⟩
  obtain ⟨e00, e01, e31, e10, e11, e20, e21, e40, e41, e3t⟩ := idx_facts t
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The array after the run: the embedding matrix as the region finds it, every row scaled by the gate row as the
    region finds it. -/
theorem final3 (c : Dev nD) : (dats m 0 c).arrAt 3 cfg0.N = scaleRows (V m c main_arg0) (V m c main_v14) :=
  (dats m 0 c).arrAt_eq_of_cover 3 _ (fun t _ => flushed3_eq m c t) cover3

/-! ## The second output: the embedding rows scaled by the second gate -/

/-- What the body leaves in this output's buffer, entry by entry: the embedding block's entry times the gate row's
    entry of the same column (the body's one store covers the buffer; its payload is the block times the gate row
    broadcast down the 256 rows). -/
theorem out4_apply (x0 : Vec F S256x4096 .f32) (x1 x2 : Vec F S1x4096 .f32) (p : Fin 256) (q : Fin 4096) :
    out0_4 x0 x1 x2 (ix2 p q) = FloatOps.mulf (x0 (ix2 p q)) (x2 (ix2 (0 : Fin 1) q)) := by
  unfold out0_4
  rw [canon4_eq]
  show FloatOps.mulf (View.ld x0 r0_0 (ix4_0 (ix2 p q))) (View.ld x2 r0_1 (ix4_1 (ix2 p q))) = _
  rw [View.ld_unit_zero (S := S256x4096) zero_off, View.ld_unit_zero (S := S1x4096) zero_off]
  have e0 : ix4_0 (ix2 p q) = ix2 p q := funext fun a => by match a with | ⟨0, _⟩ => rfl | ⟨1, _⟩ => rfl
  have e1 : ix4_1 (ix2 p q) = ix2 (0 : Fin 1) q := funext fun a => by match a with | ⟨0, _⟩ => rfl | ⟨1, _⟩ => rfl
  rw [e0, e1]

/-- What grid point `t` writes back is block `t` of the scaled matrix: the embedding block sits at rows
    `256 t … 256 t + 255`, as the output block does, and the gate's one block is the whole gate row. -/
theorem flushed4_eq (c : Dev nD) (t : Fin cfg0.N) :
    (dats m 0 c).flushed 4 t = ((cfg0.win 4).blk t).view.read (Elt F) (scaleRows (V m c main_arg0) (V m c main_v29)) := by
  rw [flushed4]
  obtain ⟨e00, e01, e31, e10, e11, e20, e21, e40, e41, -⟩ := idx_facts t
  funext j
  obtain ⟨p, q, rfl⟩ : ∃ (p : Fin 256) (q : Fin 4096), j = ix2 p q := ⟨j 0, j 1, eq_ix2 j⟩
  show out0_4 (iblk m c 0 t) (iblk m c 1 t) (iblk m c 2 t) (ix2 p q)
    = scaleRows (V m c main_arg0) (V m c main_v29) (((cfg0.win 4).blk t).view.emb (ix2 p q))
  refine (out4_apply (F := F) (iblk m c 0 t) (iblk m c 1 t) (iblk m c 2 t) p q).trans ?_
  show FloatOps.mulf (V m c main_arg0 (((cfg0.win 0).blk t).view.emb (ix2 p q))) (V m c main_v29 (((cfg0.win 2).blk t).view.emb (ix2 (0 : Fin 1) q)))
    = FloatOps.mulf (V m c main_arg0 (((cfg0.win 4).blk t).view.emb (ix2 p q))) (V m c main_v29 (rowUnder (((cfg0.win 4).blk t).view.emb (ix2 p q))))
  have h0 : ((cfg0.win 0).blk t).view.emb (ix2 p q) = ((cfg0.win 4).blk t).view.emb (ix2 p q) := by
    funext a; apply Fin.ext
    match a with
    | ⟨0, _⟩ => show win0_0.index t (0 : Fin 2) * 256 + 1 * p.val = win0_4.index t (0 : Fin 2) * 256 + 1 * p.val; omega
    | ⟨1, _⟩ => show win0_0.index t (1 : Fin 2) * 4096 + 1 * q.val = win0_4.index t (1 : Fin 2) * 4096 + 1 * q.val; omega
  have h1 : ((cfg0.win 2).blk t).view.emb (ix2 (0 : Fin 1) q) = rowUnder (((cfg0.win 4).blk t).view.emb (ix2 p q)) := by
    funext a; apply Fin.ext
    match a with
    | ⟨0, _⟩ => show win0_2.index t (0 : Fin 2) * 1 + 1 * 0 = 0; omega
    | ⟨1, _⟩ => show win0_2.index t (1 : Fin 2) * 4096 + 1 * q.val = win0_4.index t (1 : Fin 2) * 4096 + 1 * q.val; omega
  rw [h0, h1]

/-- An index of the array is in point `t`'s block iff each coordinate is in the block's range on its axis. -/
theorem mem_blk4 (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v30_1).slice (win0_4.rect t)).set ↔ _
  rw [View.set_slice_whole, Rect.mem_set_unit]
  exact Iff.rfl

/-- The 64 blocks of 256 rows tile the 16384 rows: row `r` is in the block of point `r / 256`. -/
theorem cover4 (i : S16384x4096.Idx) :
    ∃ t : Fin cfg0.N, (cfg0.win 4).flush t = true ∧ i ∈ ((cfg0.win 4).blk t).view.set := by
  have hi0 : (i 0).val < 16384 := idx2_lt0 i
  have hi1 : (i 1).val < 4096 := idx2_lt1 i
  obtain ⟨t, ht⟩ : ∃ t : Fin cfg0.N, t.val = (i 0).val / 256 :=
    ⟨⟨(i 0).val / 256, by show _ < grid0.N; rw [N_0]; omega⟩, rfl⟩
  obtain ⟨e00, e01, e31, e10, e11, e20, e21, e40, e41, e3t⟩ := idx_facts t
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- The array after the run: the embedding matrix as the region finds it, every row scaled by the gate row as the
    region finds it. -/
theorem final4 (c : Dev nD) : (dats m 0 c).arrAt 4 cfg0.N = scaleRows (V m c main_arg0) (V m c main_v29) :=
  (dats m 0 c).arrAt_eq_of_cover 4 _ (fun t _ => flushed4_eq m c t) cover4

end Cert.KernelIdeal.Blocks

end
-- ==== Proof.HostGate.lean ====
/-
  The two gate rows as the kernel's region finds them.

  Before its one region the kernel's program runs the same host operations as the reference: for each feature set
  the perceptron, the negation, the exponential, `1 + ·`, `1 / ·`, `· * 2`. The region stages the results
  (`%14` and `%29`) as its two one-row windows. Read back off the fold of those host operations over the launch
  memory, each row is the shared function `gate` of that feature set's five argument arrays; the embedding matrix is
  found as launched.
-/
import proofs.«403056_j34230889349593_3_alg».proof.Proof.Gen.KernelIdeal.Frame
import proofs.«403056_j34230889349593_3_alg».proof.Proof.Gate
import Idealize.ShloMosaic.Lib.StableHlo.Run

noncomputable section

namespace Cert.KernelIdeal.HostGate

open Cert.KernelIdeal Cert.KernelIdeal.Gen Cert.KernelIdeal.Gating
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 2000000 in
/-- The first gate row at region entry is `gate` of the first feature set's context row, weights and biases. -/
theorem gate1_eq (c : Dev nD) :
    (V m c main_v14 : S1x4096.Idx → Elt F .f32)
      = gate (m ((c : Thread nD τ).loc main_arg1)) (m ((c : Thread nD τ).loc main_arg3)) (m ((c : Thread nD τ).loc main_arg4))
          (m ((c : Thread nD τ).loc main_arg5)) (m ((c : Thread nD τ).loc main_arg6)) := by
  dsimp only [V]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 2000000 in
/-- The second gate row at region entry is `gate` of the second feature set's context row, weights and biases. -/
theorem gate2_eq (c : Dev nD) :
    (V m c main_v29 : S1x4096.Idx → Elt F .f32)
      = gate (m ((c : Thread nD τ).loc main_arg2)) (m ((c : Thread nD τ).loc main_arg7)) (m ((c : Thread nD τ).loc main_arg8))
          (m ((c : Thread nD τ).loc main_arg9)) (m ((c : Thread nD τ).loc main_arg10)) := by
  dsimp only [V]
  simp only [hostOps0, hostOps0_1, hostOps0_2, hostOps0_3, hostOps0_4, List.flatten_cons, List.flatten_nil, List.append_nil,
    List.cons_append, List.nil_append]
  after_results_simp
  rfl

end Cert.KernelIdeal.HostGate

end
-- ==== Proof.KernelRun.lean ====
/-
  The kernel's run, read: each result array as a function of the argument arrays.

  The frame run leaves the two result arrays at what the 64 grid points wrote back; the blocks tile the arrays, so
  each is the embedding matrix with every row scaled by a gate row, the matrix and the gate rows being those the
  region finds: the matrix as launched, the gate rows the shared function `gate` of the arguments.
-/
import proofs.«403056_j34230889349593_3_alg».proof.Proof.KernelBlocks
import proofs.«403056_j34230889349593_3_alg».proof.Proof.HostGate

noncomputable section

namespace Cert.KernelIdeal.KernelRun

open Cert.KernelIdeal Cert.KernelIdeal.Gen Cert.KernelIdeal.Gating
open Idealize.ShloMosaic Idealize.ShloMosaic.TcCoe Idealize.SL.Sem

variable {F : FTy → Type} [FloatOps F]
variable (m : (ℓ : Loc nD τ sig) → Buf (Elt F) ℓ) (ρ : Dev nD → PrngReg)

/-- The first result array after the run, of the arguments. -/
theorem result1 (c : Dev nD) :
    (dats m 0 c).arrAt 3 cfg0.N = scaleRows (m ((c : Thread nD τ).loc main_arg0)) (gate (m ((c : Thread nD τ).loc main_arg1)) (m ((c : Thread nD τ).loc main_arg3)) (m ((c : Thread nD τ).loc main_arg4)) (m ((c : Thread nD τ).loc main_arg5)) (m ((c : Thread nD τ).loc main_arg6))) := by
  rw [Blocks.final3, V_main_arg0, HostGate.gate1_eq]

/-- The second result array after the run, of the arguments. -/
theorem result2 (c : Dev nD) :
    (dats m 0 c).arrAt 4 cfg0.N = scaleRows (m ((c : Thread nD τ).loc main_arg0)) (gate (m ((c : Thread nD τ).loc main_arg2)) (m ((c : Thread nD τ).loc main_arg7)) (m ((c : Thread nD τ).loc main_arg8)) (m ((c : Thread nD τ).loc main_arg9)) (m ((c : Thread nD τ).loc main_arg10))) := by
  rw [Blocks.final4, V_main_arg0, HostGate.gate2_eq]

/-- Every weakly fair execution of the kernel's program terminates with the two results at the scaled matrices and
    the arguments unchanged. -/
theorem run : θ_run defs (onTc (τ := τ) (main (F := F))) ⟨m, fun _ => 0, ρ⟩ fun r => ∀ c : Dev nD,
      r.2.mem ((c : Thread nD τ).loc main_v30_0) = scaleRows (m ((c : Thread nD τ).loc main_arg0)) (gate (m ((c : Thread nD τ).loc main_arg1)) (m ((c : Thread nD τ).loc main_arg3)) (m ((c : Thread nD τ).loc main_arg4)) (m ((c : Thread nD τ).loc main_arg5)) (m ((c : Thread nD τ).loc main_arg6)))
      ∧ r.2.mem ((c : Thread nD τ).loc main_v30_1) = scaleRows (m ((c : Thread nD τ).loc main_arg0)) (gate (m ((c : Thread nD τ).loc main_arg2)) (m ((c : Thread nD τ).loc main_arg7)) (m ((c : Thread nD τ).loc main_arg8)) (m ((c : Thread nD τ).loc main_arg9)) (m ((c : Thread nD τ).loc main_arg10)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (result1 m c), (h c).2.1.trans (result2 m c), (h c).2.2⟩)
    (Value.run_blocks m ρ)

end Cert.KernelIdeal.KernelRun

end
-- ==== Proof.RefValue.lean ====
/-
  The reference's two results as the shared functions.

  The reference computes each gate by the host operations `gate` names — the same operations, in the same order,
  printed under the reference program's own names for the shapes and the dimension records — and then multiplies
  the embedding matrix by the gate broadcast down the 16384 rows. So each result is `scaleRows` of the embedding
  matrix and `gate` of that feature set's arguments.
-/
import proofs.«403056_j34230889349593_3_alg».proof.Proof.Gen.ReferenceIdeal.Run
import proofs.«403056_j34230889349593_3_alg».proof.Proof.Gate

noncomputable section

namespace Cert.ReferenceIdeal.RefValue

open Cert.ReferenceIdeal Cert.ReferenceIdeal.Gen Cert.KernelIdeal.Gating
open Idealize.ShloMosaic Idealize.ShloMosaic.TcCoe Idealize.SL.Sem

variable {F : FTy → Type} [FloatOps F]

/-- The reference's host operations for one gate, composed, ARE the shared function `gate`: operation by operation
    and literal by literal the same term, the two programs' shape names denoting the same shapes. -/
theorem gate_term_eq (x : FVec F S1x128 .f32) (W1 : FVec F S128x1024 .f32) (b1 : FVec F S1024 .f32)
    (W2 : FVec F S1024x4096 .f32) (b2 : FVec F S4096 .f32) :
    mulf (Host.divf (broadcastInDim S1x4096 ![] bcast_S_S1x4096 (constant S_ .f32 0x3F800000#32)) (addf (broadcastInDim S1x4096 ![] bcast_S_S1x4096 (constant S_ .f32 0x3F800000#32)) (Host.exp (Host.negf (addf (Host.dotGeneral dot_S1x1024_S1024x4096_S1x4096_1_0_0_1_n_n none (maximumf (addf (Host.dotGeneral dot_S1x128_S128x1024_S1x1024_1_0_0_1_n_n none x W1) (broadcastInDim S1x1024 ![1] bcast_S1024_S1x1024_1 b1)) (broadcastInDim S1x1024 ![] bcast_S_S1x1024 (constant S_ .f32 0x00000000#32))) W2) (broadcastInDim S1x4096 ![1] bcast_S4096_S1x4096_1 b2)))))) (broadcastInDim S1x4096 ![] bcast_S_S1x4096 (constant S_ .f32 0x40000000#32))
      = gate x W1 b1 W2 b2 := by
  unfold gate
  rfl

/-- A result of the reference: the embedding matrix times the gate broadcast down the rows is the matrix with every
    row scaled by the gate. -/
theorem result_eq (a : FVec F S16384x4096 .f32) (x : FVec F S1x128 .f32) (W1 : FVec F S128x1024 .f32) (b1 : FVec F S1024 .f32)
    (W2 : FVec F S1024x4096 .f32) (b2 : FVec F S4096 .f32) :
    mulf a (broadcastInDim S16384x4096 ![0, 1] bcast_S1x4096_S16384x4096_0_1 (mulf (Host.divf (broadcastInDim S1x4096 ![] bcast_S_S1x4096 (constant S_ .f32 0x3F800000#32)) (addf (broadcastInDim S1x4096 ![] bcast_S_S1x4096 (constant S_ .f32 0x3F800000#32)) (Host.exp (Host.negf (addf (Host.dotGeneral dot_S1x1024_S1024x4096_S1x4096_1_0_0_1_n_n none (maximumf (addf (Host.dotGeneral dot_S1x128_S128x1024_S1x1024_1_0_0_1_n_n none x W1) (broadcastInDim S1x1024 ![1] bcast_S1024_S1x1024_1 b1)) (broadcastInDim S1x1024 ![] bcast_S_S1x1024 (constant S_ .f32 0x00000000#32))) W2) (broadcastInDim S1x4096 ![1] bcast_S4096_S1x4096_1 b2)))))) (broadcastInDim S1x4096 ![] bcast_S_S1x4096 (constant S_ .f32 0x40000000#32))))
      = scaleRows a (gate x W1 b1 W2 b2) := by
  rw [gate_term_eq]
  exact mulf_broadcast_rows bcast_S1x4096_S16384x4096_0_1 a (gate x W1 b1 W2 b2)

end Cert.ReferenceIdeal.RefValue

end
-- ==== Proof.lean ====
/-
  The certificate: a gated embedding. Two feature sets each turn one context row into a row of 4096 multipliers
  (the gate, `2 · (1 / (1 + exp (−(relu (x · W1 + b1) · W2 + b2))))`), and each result is the 16384 × 4096
  embedding matrix with every row multiplied, column by column, by a gate row.

  The kernel's program computes the two gate rows by host operations and then runs one grid of 64 points, each
  scaling a block of 256 rows by both gate rows; the reference computes the same gate rows by the same host
  operations and multiplies the matrix by each gate broadcast down the rows. At the extended reals both results are
  `scaleRows a (gate …)` of the same arguments, the same term, so no law of arithmetic and no finiteness is used:
  the kernel's blocks tile the arrays (Proof/KernelBlocks.lean), its gate rows are `gate` of the arguments
  (Proof/HostGate.lean), and the reference's broadcast read at `(r, q)` is the gate at `(0, q)`
  (Proof/Gate.lean, Proof/RefValue.lean).

  The three frames are the generated frame runs (the reference's its generated run with the results dropped); the
  idealization rewrote nothing, so `preserves` is trivial.
-/
import proofs.«403056_j34230889349593_3_alg».proof.Defs
import proofs.«403056_j34230889349593_3_alg».proof.Proof.Gen.Kernel
import proofs.«403056_j34230889349593_3_alg».proof.Proof.Gen.Kernel.Skeleton
import proofs.«403056_j34230889349593_3_alg».proof.Proof.Gen.Kernel.Launch
import proofs.«403056_j34230889349593_3_alg».proof.Proof.Gen.Kernel.Points
import proofs.«403056_j34230889349593_3_alg».proof.Proof.Gen.Kernel.Frame
import proofs.«403056_j34230889349593_3_alg».proof.Proof.Gen.KernelIdeal
import proofs.«403056_j34230889349593_3_alg».proof.Proof.Gen.KernelIdeal.Skeleton
import proofs.«403056_j34230889349593_3_alg».proof.Proof.Gen.KernelIdeal.Launch
import proofs.«403056_j34230889349593_3_alg».proof.Proof.Gen.KernelIdeal.Points
import proofs.«403056_j34230889349593_3_alg».proof.Proof.Gen.KernelIdeal.Frame
import proofs.«403056_j34230889349593_3_alg».proof.Proof.Gen.ReferenceIdeal
import proofs.«403056_j34230889349593_3_alg».proof.Proof.Gen.Pre_finite_inputs
import proofs.«403056_j34230889349593_3_alg».proof.Proof.Gen.KernelIdeal.Value
import proofs.«403056_j34230889349593_3_alg».proof.Proof.Gen.ReferenceIdeal.Run
import proofs.«403056_j34230889349593_3_alg».proof.Proof.KernelRun
import proofs.«403056_j34230889349593_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eleven arguments both programs end with each result at the embedding matrix
    scaled row by row by the gate of that feature set's arguments: the kernel's run read through its blocks, the
    reference's run read through its broadcast. -/
theorem algebraic : Cert.algebraic_KernelIdeal_ReferenceIdeal := by
  intro m ρ m' ρ' _ hagree
  refine ⟨_, _, Cert.KernelIdeal.KernelRun.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [a0, a1, a3, a4, a5, a6]
    exact Cert.ReferenceIdeal.RefValue.result_eq _ _ _ _ _ _
  · obtain ⟨a0, a1, a2, a3, a4, a5, a6, a7, a8, a9, a10⟩ := hagree c
    rw [a0, a2, a7, a8, a9, a10]
    exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
